-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x256x512 : Shape := ⟨4, ![64, 4, 256, 512]⟩
abbrev S_ : Shape := ⟨0, ![]⟩

class Facts : Prop where
  bcast_S_S64x4x256x512 : S_.BroadcastsInDim S64x4x256x512 (![] : Fin 0 → Fin S64x4x256x512.rank)
  reducesTo_S64x4x256x512_S_d0_1_2_3 : S64x4x256x512.ReducesTo [0, 1, 2, 3] S_
  h_S_ : 0 < S_.numel

variable [Facts]

def fn_part1 {F : FTy → Type} [FloatOps F] (main_v13 : IVec S_ 1) (main_v16 : IVec S64x4x256x512 1) : IVec S_ 1 :=
  let main_c_5 : IVec S_ 1 := constantI S_ 1 1#1
  let main_v17 : IVec S_ 1 := (fun x v => Host.reduce IntOp.andi x v reducesTo_S64x4x256x512_S_d0_1_2_3 h_S_) main_v16 main_c_5
  let main_v18 : IVec S_ 1 := andi main_v13 main_v17
  main_v18

def fn {F : FTy → Type} [FloatOps F] (main_arg0 : FVec F S64x4x256x512 .f32) (main_arg1 : FVec F S64x4x256x512 .f32) (main_arg2 : FVec F S64x4x256x512 .f32) (main_arg3 : FVec F S64x4x256x512 .f32) : IVec S_ 1 :=
  let main_v0 : FVec F S64x4x256x512 .f32 := Host.absf main_arg0
  let main_cst : FVec F S_ .f32 := constant S_ .f32 0x7F800000#32
  let main_v1 : FVec F S64x4x256x512 .f32 := broadcastInDim S64x4x256x512 ![] bcast_S_S64x4x256x512 main_cst
  let main_v2 : IVec S64x4x256x512 1 := cmpf .olt main_v0 main_v1
  let main_c : IVec S_ 1 := constantI S_ 1 1#1
  let main_v3 : IVec S_ 1 := (fun x v => Host.reduce IntOp.andi x v reducesTo_S64x4x256x512_S_d0_1_2_3 h_S_) main_v2 main_c
  let main_v4 : FVec F S64x4x256x512 .f32 := Host.absf main_arg1
  let main_cst_0 : FVec F S_ .f32 := constant S_ .f32 0x7F800000#32
  let main_v5 : FVec F S64x4x256x512 .f32 := broadcastInDim S64x4x256x512 ![] bcast_S_S64x4x256x512 main_cst_0
  let main_v6 : IVec S64x4x256x512 1 := cmpf .olt main_v4 main_v5
  let main_c_1 : IVec S_ 1 := constantI S_ 1 1#1
  let main_v7 : IVec S_ 1 := (fun x v => Host.reduce IntOp.andi x v reducesTo_S64x4x256x512_S_d0_1_2_3 h_S_) main_v6 main_c_1
  let main_v8 : IVec S_ 1 := andi main_v3 main_v7
  let main_v9 : FVec F S64x4x256x512 .f32 := Host.absf main_arg2
  let main_cst_2 : FVec F S_ .f32 := constant S_ .f32 0x7F800000#32
  let main_v10 : FVec F S64x4x256x512 .f32 := broadcastInDim S64x4x256x512 ![] bcast_S_S64x4x256x512 main_cst_2
  let main_v11 : IVec S64x4x256x512 1 := cmpf .olt main_v9 main_v10
  let main_c_3 : IVec S_ 1 := constantI S_ 1 1#1
  let main_v12 : IVec S_ 1 := (fun x v => Host.reduce IntOp.andi x v reducesTo_S64x4x256x512_S_d0_1_2_3 h_S_) main_v11 main_c_3
  let main_v13 : IVec S_ 1 := andi main_v8 main_v12
  let main_v14 : FVec F S64x4x256x512 .f32 := Host.absf main_arg3
  let main_cst_4 : FVec F S_ .f32 := constant S_ .f32 0x7F800000#32
  let main_v15 : FVec F S64x4x256x512 .f32 := broadcastInDim S64x4x256x512 ![] bcast_S_S64x4x256x512 main_cst_4
  let main_v16 : IVec S64x4x256x512 1 := cmpf .olt main_v14 main_v15
  fn_part1 (F := F) main_v13 main_v16
-- ==== Kernel.lean ====
abbrev S64x4x256x512 : Shape := ⟨4, ![64, 4, 256, 512]⟩
abbrev S65536x512 : Shape := ⟨2, ![65536, 512]⟩
abbrev S1x1 : Shape := ⟨2, ![1, 1]⟩
abbrev S2048x512 : Shape := ⟨2, ![2048, 512]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S64x4x256x512, .f32⟩
  | .hbm, ⟨1, _⟩ => ⟨S64x4x256x512, .f32⟩
  | .hbm, ⟨2, _⟩ => ⟨S64x4x256x512, .f32⟩
  | .hbm, ⟨3, _⟩ => ⟨S64x4x256x512, .f32⟩
  | .hbm, ⟨4, _⟩ => ⟨S65536x512, .f32⟩
  | .hbm, ⟨5, _⟩ => ⟨S65536x512, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x1, .f32⟩
  | .local _ .vmem, ⟨5, _⟩ => ⟨S1x1, .f32⟩
  | _, _ => ⟨S64x4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v32 : BitVec 1 := Scalar.cmpi .eq arg0 c31_i32
  let v33 : BitVec 32 := Scalar.extui v32
  let c0_i32_11 : BitVec 32 := 0#32
  let v34 : BitVec 1 := Scalar.cmpi .ne v33 c0_i32_11
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x4x256x512_S65536x512 : S64x4x256x512.ShapeCasts S65536x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x4x256x512 : Shape := ⟨4, ![64, 4, 256, 512]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S64x4x256x512, .f32⟩
  | .hbm, ⟨1, _⟩ => ⟨S64x4x256x512, .f32⟩
  | .hbm, ⟨2, _⟩ => ⟨S64x4x256x512, .f32⟩
  | .hbm, ⟨3, _⟩ => ⟨S64x4x256x512, .f32⟩
  | .hbm, ⟨4, _⟩ => ⟨S_, .f32⟩
  | .hbm, ⟨5, _⟩ => ⟨S64x4x256x512, .f32⟩
  | .hbm, ⟨6, _⟩ => ⟨S64x4x256x512, .f32⟩
  | .hbm, ⟨7, _⟩ => ⟨S64x4x256x512, .f32⟩
  | .hbm, ⟨8, _⟩ => ⟨S64x4x256x512, .f32⟩
  | .hbm, ⟨9, _⟩ => ⟨S64x4x256x512, .i1⟩
  | .hbm, ⟨10, _⟩ => ⟨S64x4x256x512, .f32⟩
  | .hbm, ⟨11, _⟩ => ⟨S64x4x256x512, .f32⟩
  | .hbm, ⟨12, _⟩ => ⟨S64x4x256x512, .f32⟩
  | .hbm, ⟨13, _⟩ => ⟨S64x4x256x512, .f32⟩
  | .hbm, ⟨14, _⟩ => ⟨S64x4x256x512, .f32⟩
  | .hbm, ⟨15, _⟩ => ⟨S64x4x256x512, .f32⟩
  | .hbm, ⟨16, _⟩ => ⟨S64x4x256x512, .f32⟩
  | .hbm, ⟨17, _⟩ => ⟨S64x4x256x512, .f32⟩
  | .hbm, ⟨18, _⟩ => ⟨S64x4x256x512, .f32⟩
  | .hbm, ⟨19, _⟩ => ⟨S64x4x256x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S64x4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩

abbrev nD : Nat := 1
abbrev τ : Topo := Topo.v7x

variable {F : FTy → Type} [FloatOps F]

class Facts₀ : Prop where
  bcast_S_S64x4x256x512 : S_.BroadcastsInDim S64x4x256x512 (![] : Fin 0 → Fin S64x4x256x512.rank)
  reducesTo_S64x4x256x512_S_d0_1_2_3 : S64x4x256x512.ReducesTo [0, 1, 2, 3] S_
  h_S_ : 0 < S_.numel

variable [Facts₀]

class Facts : Prop extends Facts₀ where

variable [Facts]
-- ==== Proof.KernelPieces.lean ====
/-
  What one run of the kernel body leaves behind, read back as values.

  The body keeps a running total in a [1, 1] scratch accumulator. At every grid point it adds the point's block total to
  what the accumulator holds; at the first point it stores zero there beforehand, and at the last point it copies the
  accumulator into the [1, 1] output block afterwards. So at the first point the accumulator ends at the block's update of
  the zero vector, at every later point at the block's update of what the point before left, and at the last point the
  output block ends at that same updated value. Each of the four facts is read off the stores the body's run recorded:
  the last store into a one-element buffer covers it, and a load after a store reads what was stored.
-/
import proofs.«149968_j23536420782513_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: zero is stored, read back, and updated by the block. -/
theorem scratch_first (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S2048x512 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S2048x512) hz,
    View.ld_unit_zero (S := S1x1) hz]

/-- A middle point: what the point before left, updated by the block. -/
theorem scratch_middle (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S2048x512 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S2048x512) hz,
    View.ld_unit_zero (S := S1x1) hz]

/-- The last point's accumulator: the same update. -/
theorem scratch_last (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2048x512 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S2048x512) hz,
    View.ld_unit_zero (S := S1x1) hz]

/-- The last point's output block: the accumulator just updated, loaded and stored whole. -/
theorem output_last (c : Dev nD) (i : grid0.Coords) (a1 : Memref sig .tc .vmem S2048x512 .f32) (h1 : a1.IsWhole)
    (a2 : Memref sig .tc .vmem S2048x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2048x512 .f32) (xs : Vec F S1x1 .f32) :
    out0_C_2 c i a1 h1 a2 h2 a3 h3 a4 h4 hc0 hc1 x0 x1 xs = k0_pay2 x0 x1 xs := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S2048x512) hz,
    View.ld_unit_zero (S := S1x1) hz]

end Cert.KernelIdeal.Pieces

end
-- ==== Proof.BceMath.lean ====
/-
  The mathematics of the binary-cross-entropy-on-logits sum, free of any program.

  Per element the loss is  softplus x - y * x  with  softplus x = max x 0 + log (1 + exp (-|x|)),  |x| = max x (-x),
  on the extended reals. Two spellings of it occur: one guards the value by a comparison of  x - 0  with itself
  (never unequal: there is no NaN among the extended reals) and negates |x| as  0 - |x| ; the other negates it directly.
  Both are the function  loss  below.

  The total over a [65536, 512] array is taken two ways: at once, or row block by row block (32 blocks of 2048 rows), each
  block summed along its lanes first and then down its rows. Addition on the extended reals is commutative and associative
  (no finiteness is needed), so the two agree.
-/
import Idealize.ShloMosaic.Lib.ValueIdx
import Idealize.ShloMosaic.PureOps.Ideal.Laws

noncomputable section

namespace Cert.BceMath

open Idealize.ShloMosaic Idealize.ShloMosaic.ValueIdx

/-! ## The loss of one element -/

/-- softplus x - y * x  on the extended reals. -/
def loss (x y : EReal) : EReal :=
  (max x 0 + Ideal.log1p (Ideal.exp (-(max x (-x))))) - y * x

/-- The spelling that subtracts |x - 0| from zero and guards by an ordered comparison. -/
def chainSub (x y : Ideal .f32) : Ideal .f32 :=
  FloatOps.subf
    (Scalar.select
      (FloatOps.cmpf .one (FloatOps.subf x (FloatOps.ofBits .f32 0x00000000#32)) (FloatOps.subf x (FloatOps.ofBits .f32 0x00000000#32)))
      (FloatOps.addf x (FloatOps.ofBits .f32 0x00000000#32))
      (FloatOps.addf (FloatOps.maximumf x (FloatOps.ofBits .f32 0x00000000#32))
        (FloatOps.log1p (FloatOps.exp (FloatOps.subf (FloatOps.ofBits .f32 0x00000000#32)
          (FloatOps.absf (FloatOps.subf x (FloatOps.ofBits .f32 0x00000000#32))))))))
    (FloatOps.mulf y x)

/-- The spelling that negates |x - 0| and guards by an unordered comparison. -/
def chainNeg (x y : Ideal .f32) : Ideal .f32 :=
  FloatOps.subf
    (Scalar.select
      (FloatOps.cmpf .une (FloatOps.subf x (FloatOps.ofBits .f32 0x00000000#32)) (FloatOps.subf x (FloatOps.ofBits .f32 0x00000000#32)))
      (FloatOps.addf x (FloatOps.ofBits .f32 0x00000000#32))
      (FloatOps.addf (FloatOps.maximumf x (FloatOps.ofBits .f32 0x00000000#32))
        (FloatOps.hostUnary .log1p (FloatOps.hostUnary .exp (FloatOps.hostNegf
          (FloatOps.hostAbsf (FloatOps.subf x (FloatOps.ofBits .f32 0x00000000#32))))))))
    (FloatOps.mulf y x)

/-- A value is never unequal to itself, so the guard is clear and the selection takes its second branch. -/
theorem select_self_ne {α : Type} (p : CmpFPredicate) (hp : p = .one ∨ p = .une) (d : EReal) (a b : α) :
    Scalar.select (Ideal.cmp p d d) a b = b := by
  have h : Ideal.cmp p d d = 0#1 := by
    rcases hp with rfl | rfl <;> simp [Ideal.cmp]
  rw [h]; exact select_zero a b

theorem chainSub_eq (x y : EReal) : chainSub x y = loss x y := by
  unfold chainSub loss
  simp only [Ideal.subf_def, Ideal.addf_def, Ideal.maximumf_def, Ideal.mulf_def, Ideal.exp_def, Ideal.log1p_def,
    Ideal.ofBits_def, Ideal.ofBits_zero_f32, Ideal.cmpf_def, Ideal.absf_def, sub_zero, zero_sub]
  rw [select_self_ne .one (Or.inl rfl)]

theorem chainNeg_eq (x y : EReal) : chainNeg x y = loss x y := by
  unfold chainNeg loss
  simp only [Ideal.subf_def, Ideal.addf_def, Ideal.maximumf_def, Ideal.mulf_def, Ideal.hostUnary_exp_def,
    Ideal.hostUnary_log1p_def, Ideal.hostNegf_def, Ideal.negf_def, Ideal.hostAbsf_def, Ideal.ofBits_def,
    Ideal.ofBits_zero_f32, Ideal.cmpf_def, Ideal.absf_def, sub_zero]
  rw [select_self_ne .une (Or.inr rfl)]

/-! ## The mean's divisor -/

/-- The total divided by 32768 (the pattern 0x47000000), as the quotient on the extended reals. -/
def scaled (s : EReal) : EReal := Ideal.div s (Ideal.ofBits .f32 0x47000000#32)

/-! ## A block's two reductions are its total -/

abbrev SBlk : Shape := ⟨2, ![2048, 512]⟩
abbrev SRows : Shape := ⟨1, ![2048]⟩
abbrev SCol : Shape := ⟨2, ![2048, 1]⟩
abbrev SOne : Shape := ⟨1, ![1]⟩
abbrev SAcc : Shape := ⟨2, ![1, 1]⟩
abbrev SArr : Shape := ⟨2, ![65536, 512]⟩

/-- Summing a [2048, 512] block along its lanes, viewing the row sums as a column, summing that column, and viewing the
    one number as a [1, 1] vector gives the total of the block: each step only regroups the terms. -/
theorem laneThenRow_total (v : FVec Ideal SBlk .f32) (h1 : SBlk.Reduces [1] SRows) (h2 : SRows.ShapeCasts SCol)
    (h3 : SCol.Reduces [0] SOne) (h4 : SOne.ShapeCasts SAcc) (hφ : FKind.Formats .f32)
    (hacc : (0x00000000#32 : BitVec 32) = FKind.add.neutral .f32 hφ) (i : SAcc.Idx) :
    shapeCast SAcc (multiReduction .add [0] SOne
        (shapeCast SCol (multiReduction .add [1] SRows v 0x00000000#32 h1 hφ hacc) h2) 0x00000000#32 h3 hφ hacc) h4 i
      = ∑ j : SBlk.Idx, v j := by
  unfold shapeCast
  rw [Ideal.multiReduction_add_total _ _ h3 (fun b => by fin_cases b; rfl) hφ hacc]
  rw [Equiv.sum_comp (Shape.reshapeEquiv h2) (multiReduction .add [1] SRows v 0x00000000#32 h1 hφ hacc)]
  show ∑ r : SRows.Idx, Ideal.reduceAdd h1 v r = _
  unfold Ideal.reduceAdd
  exact Finset.sum_fiberwise Finset.univ h1.drop v

/-! ## The array's total, row block by row block -/

/-- Row r of row block t. -/
def blockRow (t : Fin 32) (r : Fin 2048) : Fin 65536 := ⟨2048 * t.val + r.val, by omega⟩

/-- Rows of the array are (block, row in block) pairs. -/
def rowEquiv : Fin 32 × Fin 2048 ≃ Fin 65536 where
  toFun p := blockRow p.1 p.2
  invFun a := (⟨a.val / 2048, by omega⟩, ⟨a.val % 2048, by omega⟩)
  left_inv p := by
    have h1 := p.1.isLt; have h2 := p.2.isLt
    apply Prod.ext <;> apply Fin.ext <;> simp only [blockRow] <;> omega
  right_inv a := by
    apply Fin.ext; simp only [blockRow]; omega

/-- Where element j of row block t sits in the array. -/
abbrev blockIdx (t : Fin 32) (j : SBlk.Idx) : SArr.Idx := ix2 (blockRow t (j 0)) (j 1)

/-- The total over the array is the sum over the 32 row blocks of each block's total. -/
theorem sum_blocks (G : SArr.Idx → EReal) :
    ∑ k : SArr.Idx, G k = ∑ t : Fin 32, ∑ j : SBlk.Idx, G (blockIdx t j) := by
  rw [sum_idx2]
  rw [← Equiv.sum_comp rowEquiv (fun a : Fin 65536 => ∑ b : Fin 512, G (ix2 a b)), Fintype.sum_prod_type]
  refine Finset.sum_congr rfl fun t _ => ?_
  rw [sum_idx2]
  rfl

end Cert.BceMath

end
-- ==== Proof.KernelTotal.lean ====
/-
  The kernel's result as a function of its arguments, at the extended reals.

  One run of the body adds, to the accumulator's one entry, the total loss of the point's logits block and targets block
  (the lane sum followed by the row sum is the block's total). By induction on the point the accumulator after point n
  holds the block totals of points 0 to n added up; the first point starts from a stored zero. At the last point the
  output block is a copy of the accumulator, and that block is the whole [1, 1] result array, written back once. The host
  then views the array as a scalar and divides by 32768.

  The point's blocks are rows 2048 t to 2048 t + 2047 of the two [65536, 512] arrays, so the 32 block totals are the
  total over the arrays; the arrays are the first and third arguments reshaped, and a reshape keeps every element once.
-/
import proofs.«149968_j23536420782513_1_alg».proof.Proof.KernelPieces
import proofs.«149968_j23536420782513_1_alg».proof.Proof.BceMath
import Idealize.ShloMosaic.Lib.Pipeline.Value

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.KernelIdeal.Facts₀ Cert.BceMath

variable (m : (ℓ : Loc nD τ sig) → Buf (Elt Ideal) ℓ) (ρ : Dev nD → PrngReg)

/-! ## The body's two stored values, index by index -/

/-- The value stored at the first point before anything is added: zero. -/
theorem zero_apply (i : S1x1.Idx) : k0_pay1 (F := Ideal) i = 0 := by
  unfold k0_pay1
  simp only [shapeCast_self]
  exact Ideal.ofBits_zero_f32

/-- The update: the accumulator's entry plus the total loss of the point's two blocks (logits, targets). -/
theorem update_apply (x0 x1 : Vec Ideal S2048x512 .f32) (acc : Vec Ideal S1x1 .f32) (i : S1x1.Idx) :
    k0_pay2 x0 x1 acc i = acc i + ∑ j : S2048x512.Idx, loss (x0 j) (x1 j) := by
  unfold k0_pay2
  simp only [shapeCast_self]
  refine congrArg (acc i + ·) ?_
  refine (laneThenRow_total _ _ _ _ _ (.inl rfl) rfl i).trans ?_
  exact Finset.sum_congr rfl fun j _ => chainSub_eq (x0 j) (x1 j)

/-! ## The accumulator after each point -/

/-- The logits block and the targets block the body is handed at point t. -/
abbrev xblk (c : Dev nD) (t : Fin cfg0.N) : Vec Ideal S2048x512 .f32 := iblk m c 0 t
abbrev yblk (c : Dev nD) (t : Fin cfg0.N) : Vec Ideal S2048x512 .f32 := iblk m c 1 t

/-- The total loss of point t's blocks. -/
def blockTotal (c : Dev nD) (t : Fin cfg0.N) : EReal := ∑ j : S2048x512.Idx, loss (xblk m c t j) (yblk m c t j)

/-- The same by the point's number, zero past the grid. -/
def blockTotalN (c : Dev nD) (t : ℕ) : EReal := if h : t < cfg0.N then blockTotal m c ⟨t, h⟩ else 0

theorem blockTotalN_of_lt (c : Dev nD) (t : ℕ) (h : t < cfg0.N) : blockTotalN m c t = blockTotal m c ⟨t, h⟩ := dif_pos h

/-- At the first point the accumulator ends at that point's block total. -/
theorem acc_first (c : Dev nD) (t : Fin cfg0.N) (h0 : t.val % 32 = 0) (i : S1x1.Idx) :
    (outsAt0 m c t.val t.isLt).2 i = blockTotal m c t := by
  have hN : t.val < 32 := lt_of_lt_of_eq t.isLt (show cfg0.N = 32 from N_0)
  have h1 : ¬t.val % 32 = 31 := by omega
  rw [outsAt0_A m c t h0 h1]
  dsimp only
  refine (congrFun (Pieces.scratch_first (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (xblk m c t) (yblk m c t)) i).trans ?_
  rw [update_apply, zero_apply, zero_add]
  rfl

/-- At every later point it ends at what the point before left plus that point's block total. -/
theorem acc_later (c : Dev nD) (t : Fin cfg0.N) (h0 : ¬t.val % 32 = 0) (i : S1x1.Idx) :
    (outsAt0 m c t.val t.isLt).2 i
      = (outsAt0 m c (t.val - 1) (Nat.lt_of_le_of_lt (Nat.sub_le _ _) t.isLt)).2 i + blockTotal m c t := by
  by_cases h1 : t.val % 32 = 31
  · rw [outsAt0_C m c t h0 h1]
    dsimp only
    refine (congrFun (Pieces.scratch_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (xblk m c t) (yblk m c t)
      (outsAt0 m c (t.val - 1) (Nat.lt_of_le_of_lt (Nat.sub_le _ _) t.isLt)).2) i).trans ?_
    rw [update_apply]
    rfl
  · rw [outsAt0_B m c t h0 h1]
    dsimp only
    refine (congrFun (Pieces.scratch_middle (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (xblk m c t) (yblk m c t)
      (outsAt0 m c (t.val - 1) (Nat.lt_of_le_of_lt (Nat.sub_le _ _) t.isLt)).2) i).trans ?_
    rw [update_apply]
    rfl

/-- So after point n the accumulator holds the block totals of points 0 to n, added up. -/
theorem acc_eq (c : Dev nD) (i : S1x1.Idx) : ∀ (n : ℕ) (hn : n < cfg0.N),
    (outsAt0 m c n hn).2 i = ∑ t ∈ Finset.range (n + 1), blockTotalN m c t
  | 0, hn => by
    rw [Finset.sum_range_one, blockTotalN_of_lt m c 0 hn]
    exact acc_first m c ⟨0, hn⟩ rfl i
  | n + 1, hn => by
    have hN : n + 1 < 32 := lt_of_lt_of_eq hn (show cfg0.N = 32 from N_0)
    have h0 : ¬(⟨n + 1, hn⟩ : Fin cfg0.N).val % 32 = 0 := by dsimp only; omega
    rw [Finset.sum_range_succ, blockTotalN_of_lt m c (n + 1) hn, ← acc_eq c i n (Nat.lt_of_succ_lt hn)]
    exact acc_later m c ⟨n + 1, hn⟩ h0 i

/-! ## The result array -/

/-- The kernel's total: the 32 block totals added up. -/
def total (c : Dev nD) : EReal := ∑ t ∈ Finset.range 32, blockTotalN m c t

/-- The [1, 1] result array with that total as its one entry. -/
abbrev resultArr (c : Dev nD) : Buf (Elt Ideal) ((c : Thread nD τ).loc main_v2) := fun _ => total m c

/-- At the last point the output block is the accumulator, which by then holds the total. -/
theorem out_last (c : Dev nD) (t : Fin cfg0.N) (h1 : t.val % 32 = 31) (i : S1x1.Idx) :
    (outsAt0 m c t.val t.isLt).1 i = total m c := by
  obtain ⟨n, hn⟩ := t
  have hN : n < 32 := lt_of_lt_of_eq hn (show cfg0.N = 32 from N_0)
  obtain rfl : n = 31 := by dsimp only at h1; omega
  have h0 : ¬(⟨31, hn⟩ : Fin cfg0.N).val % 32 = 0 := by dsimp only; omega
  have e : (outsAt0 m c 31 hn).1 i = (outsAt0 m c 31 hn).2 i := by
    show (outsAt0 m c (⟨31, hn⟩ : Fin cfg0.N).val (⟨31, hn⟩ : Fin cfg0.N).isLt).1 i = (outsAt0 m c (⟨31, hn⟩ : Fin cfg0.N).val (⟨31, hn⟩ : Fin cfg0.N).isLt).2 i
    rw [outsAt0_C m c ⟨31, hn⟩ h0 h1]
    dsimp only
    exact (congrFun (Pieces.output_last (F := Ideal) c (grid0.coords ⟨31, hn⟩) (ms0_0 ⟨31, hn⟩) (hs0_0 ⟨31, hn⟩) (ms0_1 ⟨31, hn⟩) (hs0_1 ⟨31, hn⟩)
        (ms0_2 ⟨31, hn⟩) (hs0_2 ⟨31, hn⟩) scM0_0 (Memref.isWhole_whole _) (fun h => h0 ((hcond0_0 ⟨31, hn⟩).mp h)) ((hcond0_1 ⟨31, hn⟩).mpr h1)
        (xblk m c ⟨31, hn⟩) (yblk m c ⟨31, hn⟩) (outsAt0 m c (31 - 1) (Nat.lt_of_le_of_lt (Nat.sub_le _ _) hn)).2) i).trans
      (congrFun (Pieces.scratch_last (F := Ideal) c (grid0.coords ⟨31, hn⟩) (ms0_0 ⟨31, hn⟩) (hs0_0 ⟨31, hn⟩) (ms0_1 ⟨31, hn⟩) (hs0_1 ⟨31, hn⟩)
        (ms0_2 ⟨31, hn⟩) (hs0_2 ⟨31, hn⟩) scM0_0 (Memref.isWhole_whole _) (fun h => h0 ((hcond0_0 ⟨31, hn⟩).mp h)) ((hcond0_1 ⟨31, hn⟩).mpr h1)
        (xblk m c ⟨31, hn⟩) (yblk m c ⟨31, hn⟩) (outsAt0 m c (31 - 1) (Nat.lt_of_le_of_lt (Nat.sub_le _ _) hn)).2) i).symm
  exact e.trans (acc_eq m c i 31 hn)

/-- The one write-back, at the last point, writes the total. -/
theorem flushed_eq (c : Dev nD) (t : Fin cfg0.N) (hf : (cfg0.win 2).flush t = true) :
    (dats m 0 c).flushed 2 t = ((cfg0.win 2).blk t).view.read (Elt Ideal) (resultArr m c) := by
  have h31 := (flush0_2 t).mp hf
  show (cfg0.win 2).cut (grid0.coords t) ((dats m 0 c).after 2 t) = _
  rw [after0_2]
  funext y
  rw [View.read_apply]
  exact out_last m c t h31 _

/-- The last point. -/
def tLast : Fin cfg0.N := ⟨31, by rw [show cfg0.N = 32 from N_0]; decide⟩

/-- The last point's block starts at the origin of the [1, 1] result array and has one element along each axis, -/
theorem last_block_origin : ∀ a : Fin 2, win0_2.index tLast a * win0_2.size a = 0 := by decide +kernel
theorem last_block_extent : ∀ a : Fin 2, win0_2.xsize (grid0.coords tLast) a = 1 := by decide +kernel

/-- so every index of the array lies in it. -/
theorem last_block_whole (c : Dev nD) (i : ((cfg0.win 2).arr.view.loc (c.tc : Thread nD τ)).2.ty.Idx) :
    i ∈ ((cfg0.win 2).blk tLast).view.set := by
  show i ∈ ((View.whole main_v2).slice (win0_2.rect tLast)).set
  rw [View.set_slice_whole, Rect.mem_set_unit]
  intro a
  have hlt : (i a : Nat) < 1 := by fin_cases a <;> exact (i _).isLt
  show win0_2.index tLast a * win0_2.size a ≤ (i a : Nat)
    ∧ (i a : Nat) < win0_2.index tLast a * win0_2.size a + win0_2.xsize (grid0.coords tLast) a
  rw [last_block_origin a, last_block_extent a]
  omega

/-- The array is written back once, by the last point, whose block is all of it: it ends holding the total. -/
theorem final (c : Dev nD) : (dats m 0 c).arrAt 2 cfg0.N = resultArr m c :=
  (dats m 0 c).arrAt_eq_of_cover 2 (resultArr m c) (flushed_eq m c) fun i =>
    ⟨tLast, (flush0_2 tLast).mpr rfl, last_block_whole c i⟩

/-! ## The host operations after the region -/

/-- The kernel's result: the total divided by 32768 (the host's quotient of the one-element array viewed as a scalar). -/
def result (c : Dev nD) : Buf (Elt Ideal) ((c : Thread nD τ).loc main_v4) := fun _ => scaled (total m c)

/-- The three operations after the region view the [1, 1] result array as a scalar and divide it by the constant. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2)
      = resultArr m c :=
    (Pipeline.withArrays_arr spec0 launch0.win.arr_inj c _ _ 2).trans (final m c)
  rw [e]
  rfl

/-! ## The run -/

/-- Every weakly fair execution ends with the result at the scaled total and the four arguments as they were. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-! ## The total as a function of the arguments -/

/-- The two [65536, 512] arrays the region is handed: logits and targets. -/
abbrev logits (c : Dev nD) : S65536x512.Idx → EReal := V m c main_v0
abbrev targets (c : Dev nD) : S65536x512.Idx → EReal := V m c main_v1

/-- At point t both input windows sit at block row t, lane block 0. -/
theorem index_facts : ∀ t : Fin cfg0.N,
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0)

/-- Element j of point t's logits block is the array's element at row 2048 t + j₀, lane j₁. -/
theorem xblk_apply (c : Dev nD) (t : Fin cfg0.N) (ht : t.val < 32) (j : S2048x512.Idx) :
    xblk m c t j = logits m c (blockIdx ⟨t.val, ht⟩ j) := by
  obtain ⟨h00, h01, -, -⟩ := index_facts t
  show iblk m c 0 t j = _
  unfold iblk
  rw [View.read_apply]
  show V m c main_v0 _ = V m c main_v0 _
  congr 1
  funext a
  apply Fin.ext
  match a with
  | ⟨0, _⟩ => show win0_0.index t 0 * 2048 + 1 * (j 0).val = 2048 * t.val + (j 0).val; rw [h00]; omega
  | ⟨1, _⟩ => show win0_0.index t 1 * 512 + 1 * (j 1).val = (j 1).val; rw [h01]; omega

/-- The same for the targets block. -/
theorem yblk_apply (c : Dev nD) (t : Fin cfg0.N) (ht : t.val < 32) (j : S2048x512.Idx) :
    yblk m c t j = targets m c (blockIdx ⟨t.val, ht⟩ j) := by
  obtain ⟨-, -, h10, h11⟩ := index_facts t
  show iblk m c 1 t j = _
  unfold iblk
  rw [View.read_apply]
  show V m c main_v1 _ = V m c main_v1 _
  congr 1
  funext a
  apply Fin.ext
  match a with
  | ⟨0, _⟩ => show win0_1.index t 0 * 2048 + 1 * (j 0).val = 2048 * t.val + (j 0).val; rw [h10]; omega
  | ⟨1, _⟩ => show win0_1.index t 1 * 512 + 1 * (j 1).val = (j 1).val; rw [h11]; omega

/-- A point's block total, over the arrays. -/
theorem blockTotal_eq (c : Dev nD) (t : Fin cfg0.N) (ht : t.val < 32) :
    blockTotal m c t
      = ∑ j : SBlk.Idx, loss (logits m c (blockIdx ⟨t.val, ht⟩ j)) (targets m c (blockIdx ⟨t.val, ht⟩ j)) := by
  unfold blockTotal
  exact Finset.sum_congr rfl fun j _ => by rw [xblk_apply m c t ht j, yblk_apply m c t ht j]

/-- The 32 block totals are the total over the two arrays: the blocks tile the rows. -/
theorem total_eq (c : Dev nD) : total m c = ∑ k : S65536x512.Idx, loss (logits m c k) (targets m c k) := by
  rw [sum_blocks (fun k => loss (logits m c k) (targets m c k))]
  unfold total
  rw [← Fin.sum_univ_eq_sum_range (fun t => blockTotalN m c t) 32]
  refine Finset.sum_congr rfl fun t _ => ?_
  have ht : t.val < cfg0.N := lt_of_lt_of_eq t.isLt (show 32 = cfg0.N from N_0.symm)
  rw [blockTotalN_of_lt m c t.val ht, blockTotal_eq m c ⟨t.val, ht⟩ t.isLt]

/-- The arrays are the first and third arguments viewed as [65536, 512] (the two host reshapes before the region). -/
theorem logits_eq (c : Dev nD) :
    logits m c = shapeCast S65536x512 (m ((c : Thread nD τ).loc main_arg0)) Facts₀.shapeCasts_S64x4x256x512_S65536x512 := by
  show StableHlo.after hostOps0 (fun b => m (c, b)) (Proc.devRef .tc main_v0) = _
  after_results <;> rfl

theorem targets_eq (c : Dev nD) :
    targets m c = shapeCast S65536x512 (m ((c : Thread nD τ).loc main_arg2)) Facts₀.shapeCasts_S64x4x256x512_S65536x512 := by
  show StableHlo.after hostOps0 (fun b => m (c, b)) (Proc.devRef .tc main_v1) = _
  after_results <;> rfl

/-- A reshape keeps every element once, so the total is the total loss over every index of the two arguments. -/
theorem total_args (c : Dev nD) :
    total m c = ∑ j : S64x4x256x512.Idx,
      loss (m ((c : Thread nD τ).loc main_arg0) j) (m ((c : Thread nD τ).loc main_arg2) j) := by
  rw [total_eq, logits_eq, targets_eq]
  unfold shapeCast
  exact Equiv.sum_comp (Shape.reshapeEquiv Facts₀.shapeCasts_S64x4x256x512_S65536x512)
    (fun k => loss (m ((c : Thread nD τ).loc main_arg0) k) (m ((c : Thread nD τ).loc main_arg2) k))

end Cert.KernelIdeal.Total

end
-- ==== Proof.RefSide.lean ====
/-
  The reference, read as mathematics.

  Its program computes, element by element over the [64, 4, 256, 512] arrays, softplus of the logit minus target times
  logit (the spelling that negates |x|), adds all of them up starting from zero, and divides by 32768. So its sum stage
  is the total of the per-element loss over every index of the arguments.
-/
import proofs.«149968_j23536420782513_1_alg».proof.Proof.Gen.ReferenceIdeal.Run
import proofs.«149968_j23536420782513_1_alg».proof.Proof.Gen.ReferenceIdeal.Read
import proofs.«149968_j23536420782513_1_alg».proof.Proof.BceMath

noncomputable section

open Idealize.ShloMosaic Idealize.ShloMosaic.TcCoe Idealize.SL.Sem

namespace Cert.ReferenceIdeal.RefTotal

open Cert.ReferenceIdeal Cert.ReferenceIdeal.Read Cert.BceMath

/-- The elementwise stage at an index is the loss of the logit and the target there. -/
theorem elem_eq (x0 x2 : (⟨S64x4x256x512, .f32⟩ : BufTy).Contents (Elt Ideal)) (j : S64x4x256x512.Idx) :
    val_main_v2 (F := Ideal) x0 x2 j = loss (x0 j) (x2 j) := by
  simp only [val_main_v2_apply, val_main_v0_apply, val_main_v1_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply]
  exact chainNeg_eq (x0 j) (x2 j)

/-- The sum stage is the total loss over every index (the initial value is zero). -/
theorem sum_eq (x0 x2 : (⟨S64x4x256x512, .f32⟩ : BufTy).Contents (Elt Ideal)) (i : S_.Idx) :
    val_main_v3 (F := Ideal) x0 x2 i = ∑ j : S64x4x256x512.Idx, loss (x0 j) (x2 j) := by
  rw [val_main_v3_apply, val_main_cst_apply]
  show Ideal.ofBits .f32 0x00000000#32 + _ = _
  rw [Ideal.ofBits_zero_f32, zero_add]
  exact Finset.sum_congr rfl fun j _ => elem_eq x0 x2 j

/-- The result is that total divided by 32768. -/
theorem result_apply (x0 x2 : (⟨S64x4x256x512, .f32⟩ : BufTy).Contents (Elt Ideal)) (i : S_.Idx) :
    val_main_v4 (F := Ideal) x0 x2 i = scaled (∑ j : S64x4x256x512.Idx, loss (x0 j) (x2 j)) := by
  rw [val_main_v4_apply, val_main_cst_0_apply, sum_eq]
  rfl

end Cert.ReferenceIdeal.RefTotal

end
-- ==== Proof.lean ====
/-
  A mean binary-cross-entropy-on-logits loss: over the [64, 4, 256, 512] logits x and targets y,

      ( Σ over every element of  softplus x - y * x ) / 32768 ,     softplus x = max x 0 + log (1 + exp (-|x|)) .

  The reference adds all 33,554,432 terms at once. The kernel views both arrays as [65536, 512], walks 32 blocks of 2048
  rows, sums each block along its lanes and then down its rows, and adds the block's total into a one-element
  accumulator that it zeroes before the first block and copies out after the last; the host then divides by 32768.

  On the extended reals the two are the same number. Per element the two spellings of softplus differ only in how |x|
  is negated and in a self-comparison that is never true; addition is commutative and associative there, so grouping the
  terms by block, lane and row changes nothing (no finiteness of the inputs is used); a reshape keeps every element once;
  and both sides divide by the same constant. The kernel's frames are the generated ones, the reference's frame is its
  generated run, and nothing was rewritten between the kernel and its idealization.
-/
import proofs.«149968_j23536420782513_1_alg».proof.Defs
import proofs.«149968_j23536420782513_1_alg».proof.Proof.Gen.Kernel
import proofs.«149968_j23536420782513_1_alg».proof.Proof.Gen.Kernel.Frame
import proofs.«149968_j23536420782513_1_alg».proof.Proof.Gen.KernelIdeal
import proofs.«149968_j23536420782513_1_alg».proof.Proof.Gen.KernelIdeal.Frame
import proofs.«149968_j23536420782513_1_alg».proof.Proof.Gen.ReferenceIdeal
import proofs.«149968_j23536420782513_1_alg».proof.Proof.Gen.Pre_finite_inputs
import proofs.«149968_j23536420782513_1_alg».proof.Proof.KernelTotal
import proofs.«149968_j23536420782513_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end at the total loss over every index of the first and third arguments, divided by 32768. -/
theorem algebraic : Cert.algebraic_KernelIdeal_ReferenceIdeal := by
  intro m ρ m' ρ' _ hagree
  refine ⟨fun c => Cert.KernelIdeal.Total.result m c, Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.2.1]
  funext i
  rw [Cert.ReferenceIdeal.RefTotal.result_apply]
  show _ = Cert.BceMath.scaled (Cert.KernelIdeal.Total.total m c)
  rw [Cert.KernelIdeal.Total.total_args]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
